-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x3 : Shape := ⟨4, ![2, 16, 1024, 3]⟩
abbrev S_ : Shape := ⟨0, ![]⟩

class Facts : Prop where
  bcast_S_S2x16x1024x3 : S_.BroadcastsInDim S2x16x1024x3 (![] : Fin 0 → Fin S2x16x1024x3.rank)
  reducesTo_S2x16x1024x3_S_d0_1_2_3 : S2x16x1024x3.ReducesTo [0, 1, 2, 3] S_
  h_S_ : 0 < S_.numel

variable [Facts]

def fn {F : FTy → Type} [FloatOps F] (main_arg0 : FVec F S2x16x1024x3 .f32) (main_arg1 : FVec F S2x16x1024x3 .f32) : IVec S_ 1 :=
  let main_v0 : FVec F S2x16x1024x3 .f32 := Host.absf main_arg0
  let main_cst : FVec F S_ .f32 := constant S_ .f32 0x7F800000#32
  let main_v1 : FVec F S2x16x1024x3 .f32 := broadcastInDim S2x16x1024x3 ![] bcast_S_S2x16x1024x3 main_cst
  let main_v2 : IVec S2x16x1024x3 1 := cmpf .olt main_v0 main_v1
  let main_c : IVec S_ 1 := constantI S_ 1 1#1
  let main_v3 : IVec S_ 1 := (fun x v => Host.reduce IntOp.andi x v reducesTo_S2x16x1024x3_S_d0_1_2_3 h_S_) main_v2 main_c
  let main_v4 : FVec F S2x16x1024x3 .f32 := Host.absf main_arg1
  let main_cst_0 : FVec F S_ .f32 := constant S_ .f32 0x7F800000#32
  let main_v5 : FVec F S2x16x1024x3 .f32 := broadcastInDim S2x16x1024x3 ![] bcast_S_S2x16x1024x3 main_cst_0
  let main_v6 : IVec S2x16x1024x3 1 := cmpf .olt main_v4 main_v5
  let main_c_1 : IVec S_ 1 := constantI S_ 1 1#1
  let main_v7 : IVec S_ 1 := (fun x v => Host.reduce IntOp.andi x v reducesTo_S2x16x1024x3_S_d0_1_2_3 h_S_) main_v6 main_c_1
  let main_v8 : IVec S_ 1 := andi main_v3 main_v7
  main_v8
-- ==== Kernel.lean ====
abbrev S2x16x1024x3 : Shape := ⟨4, ![2, 16, 1024, 3]⟩
abbrev S32x1024x3 : Shape := ⟨3, ![32, 1024, 3]⟩
abbrev S32x3x1024 : Shape := ⟨3, ![32, 3, 1024]⟩
abbrev S32x1x128 : Shape := ⟨3, ![32, 1, 128]⟩
abbrev S1x3x1024 : Shape := ⟨3, ![1, 3, 1024]⟩
abbrev S1x1024x3 : Shape := ⟨3, ![1, 1024, 3]⟩
abbrev S1x1x128 : Shape := ⟨3, ![1, 1, 128]⟩
abbrev S1024x1024 : Shape := ⟨2, ![1024, 1024]⟩
abbrev S1x1x1024 : Shape := ⟨3, ![1, 1, 1024]⟩
abbrev S1x1024 : Shape := ⟨2, ![1, 1024]⟩
abbrev S1x1024x1 : Shape := ⟨3, ![1, 1024, 1]⟩
abbrev S1024x1 : Shape := ⟨2, ![1024, 1]⟩
abbrev S1024 : Shape := ⟨1, ![1024]⟩
abbrev S1 : Shape := ⟨1, ![1]⟩
abbrev S1x1 : Shape := ⟨2, ![1, 1]⟩
abbrev S1x128 : Shape := ⟨2, ![1, 128]⟩
abbrev S32x128 : Shape := ⟨2, ![32, 128]⟩
abbrev S32x1 : Shape := ⟨2, ![32, 1]⟩
abbrev S32 : Shape := ⟨1, ![32]⟩
abbrev S_ : Shape := ⟨0, ![]⟩

abbrev nBuf : Space → Nat
  | .hbm => 20
  | .vmem => 6
  | .smem => 0
  | _ => 0

abbrev bufTy : (tb : Table) → Fin (tcTables nBuf tb) → BufTy
  | .hbm, ⟨0, _⟩ => ⟨S2x16x1024x3, .f32⟩
  | .hbm, ⟨1, _⟩ => ⟨S2x16x1024x3, .f32⟩
  | .hbm, ⟨2, _⟩ => ⟨S32x1024x3, .f32⟩
  | .hbm, ⟨3, _⟩ => ⟨S32x1024x3, .f32⟩
  | .hbm, ⟨4, _⟩ => ⟨S32x3x1024, .f32⟩
  | .hbm, ⟨5, _⟩ => ⟨S32x1x128, .f32⟩
  | .hbm, ⟨6, _⟩ => ⟨S32x128, .f32⟩
  | .hbm, ⟨7, _⟩ => ⟨S32x1, .f32⟩
  | .hbm, ⟨8, _⟩ => ⟨S32, .f32⟩
  | .hbm, ⟨9, _⟩ => ⟨S_, .f32⟩
  | .hbm, ⟨10, _⟩ => ⟨S_, .f32⟩
  | .hbm, ⟨11, _⟩ => ⟨S32x1, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x1024x3, .f32⟩
  | .local _ .vmem, ⟨3, _⟩ => ⟨S1x1024x3, .f32⟩
  | .local _ .vmem, ⟨4, _⟩ => ⟨S1x1x128, .f32⟩
  | .local _ .vmem, ⟨5, _⟩ => ⟨S1x1x128, .f32⟩
  | _, _ => ⟨S2x16x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x1024x3_S32x1024x3 : S2x16x1024x3.ShapeCasts S32x1024x3
  transposes_S32x1024x3_S32x3x1024_0_2_1 : S32x1024x3.Transposes [0, 2, 1] S32x3x1024
  inb_S1x3x1024_S1x1x1024_0_0_0 : ∀ a, (![0, 0, 0] : Fin 3 → Nat) a + S1x1x1024.size a ≤ S1x3x1024.size a
  h_S1x1x1024 : 0 < S1x1x1024.numel
  shapeCasts_S1x1x1024_S1x1024 : S1x1x1024.ShapeCasts S1x1024
  inb_S1x1024x3_S1x1024x1_0_0_0 : ∀ a, (![0, 0, 0] : Fin 3 → Nat) a + S1x1024x1.size a ≤ S1x1024x3.size a
  h_S1x1024x1 : 0 < S1x1024x1.numel
  shapeCasts_S1x1024x1_S1024x1 : S1x1024x1.ShapeCasts S1024x1
  broadcasts_S1024x1_S1024x1024 : S1024x1.Broadcasts S1024x1024
  broadcasts_S1x1024_S1024x1024 : S1x1024.Broadcasts S1024x1024
  inb_S1x3x1024_S1x1x1024_0_1_0 : ∀ a, (![0, 1, 0] : Fin 3 → Nat) a + S1x1x1024.size a ≤ S1x3x1024.size a
  inb_S1x1024x3_S1x1024x1_0_0_1 : ∀ a, (![0, 0, 1] : Fin 3 → Nat) a + S1x1024x1.size a ≤ S1x1024x3.size a
  inb_S1x3x1024_S1x1x1024_0_2_0 : ∀ a, (![0, 2, 0] : Fin 3 → Nat) a + S1x1x1024.size a ≤ S1x3x1024.size a
  inb_S1x1024x3_S1x1024x1_0_0_2 : ∀ a, (![0, 0, 2] : Fin 3 → Nat) a + S1x1024x1.size a ≤ S1x1024x3.size a
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  reduces_S1x1024_S1 : S1x1024.Reduces [1] S1
  shapeCasts_S1_S1x1 : S1.ShapeCasts S1x1
  reduces_S1024x1_S1 : S1024x1.Reduces [0] S1
  iota_S1x128_d1_w32 : S1x128.Iotas .tc 32 [1]
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x128_S32x128 : S32x1x128.ShapeCasts S32x128
  slices_S32x128_S32x1_0_0 : S32x128.Slices ![0, 0] S32x1
  shapeCasts_S32x1_S32 : S32x1.ShapeCasts S32
  reducesTo_S32_S_d0 : S32.ReducesTo [0] S_
  h_S_ : 0 < S_.numel
  slices_S32x128_S32x1_0_1 : S32x128.Slices ![0, 1] S32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S32x3x1024.size a
  hwx0_0 : ∀ i : grid0.Coords, EltTy.bits .f32 = 32 ∨ (Rect.block (s := S32x3x1024) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x1024x3.size a
  hwx0_1 : ∀ i : grid0.Coords, EltTy.bits .f32 = 32 ∨ (Rect.block (s := S32x1024x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

abbrev win0_0 : Pipeline.Window sig grid0 :=
  Pipeline.Window.ofSpec (Memref.whole main_v2) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x1024x3 : Shape := ⟨4, ![2, 16, 1024, 3]⟩
abbrev S32x1024x3 : Shape := ⟨3, ![32, 1024, 3]⟩
abbrev S_ : Shape := ⟨0, ![]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x16x1024x3, .f32⟩
  | .hbm, ⟨1, _⟩ => ⟨S2x16x1024x3, .f32⟩
  | .hbm, ⟨2, _⟩ => ⟨S32x1024x3, .f32⟩
  | .hbm, ⟨3, _⟩ => ⟨S32x1024x3, .f32⟩
  | .hbm, ⟨4, _⟩ => ⟨S32x1024x3, .f32⟩
  | .hbm, ⟨5, _⟩ => ⟨S_, .f32⟩
  | .hbm, ⟨6, _⟩ => ⟨S32x1024, .f32⟩
  | .hbm, ⟨7, _⟩ => ⟨S32x1024x3, .f32⟩
  | .hbm, ⟨8, _⟩ => ⟨S_, .f32⟩
  | .hbm, ⟨9, _⟩ => ⟨S32x1024, .f32⟩
  | .hbm, ⟨10, _⟩ => ⟨S32x1024x1024, .f32⟩
  | .hbm, ⟨11, _⟩ => ⟨S32x1024x1, .f32⟩
  | .hbm, ⟨12, _⟩ => ⟨S32x1x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S_, .f32⟩
  | .hbm, ⟨21, _⟩ => ⟨S32x1024x1024, .f32⟩
  | .hbm, ⟨22, _⟩ => ⟨S32x1024x1024, .f32⟩
  | .hbm, ⟨23, _⟩ => ⟨S_, .f32⟩
  | .hbm, ⟨24, _⟩ => ⟨S32x1024x1024, .f32⟩
  | .hbm, ⟨25, _⟩ => ⟨S32x1024x1024, .f32⟩
  | .hbm, ⟨26, _⟩ => ⟨S32x1024x1024, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2x16x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S2x16x1024x3_S32x1024x3 : S2x16x1024x3.ShapeCasts S32x1024x3
  reducesTo_S32x1024x3_S32x1024_d2 : S32x1024x3.ReducesTo [2] S32x1024
  h_S_ : 0 < S_.numel
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d1 : S32x1024x1024.ReducesTo [1] S32x1024
  reducesTo_S32x1024x1024_S32x1024_d2 : S32x1024x1024.ReducesTo [2] S32x1024
  reducesTo_S32x1024_S_d0_1 : S32x1024.ReducesTo [0, 1] S_
  dot_S32x1024x3_S32x1024x3_S32x1024x1024_2_2_1_1_0_0_wf : DotDims.WF S32x1024x3 S32x1024x3 S32x1024x1024 [2] [2] [1] [1] [0] [0]

variable [Facts₀]

def dot_S32x1024x3_S32x1024x3_S32x1024x1024_2_2_1_1_0_0 : DotDims S32x1024x3 S32x1024x3 S32x1024x1024 where
  lhsContracting := [2]
  rhsContracting := [2]
  lhsNonContracting := [1]
  rhsNonContracting := [1]
  lhsBatch := [0]
  rhsBatch := [0]
  wf := dot_S32x1024x3_S32x1024x3_S32x1024x1024_2_2_1_1_0_0_wf

class Facts : Prop extends Facts₀ where

variable [Facts]
-- ==== Proof.ChamferSpec.lean ====
/-
  The Chamfer loss of two batches of point clouds, written twice over the extended reals, and the law that joins the
  two writings.

  A batch is 32 clouds of 1024 points in 3 coordinates. For clouds x, y of one batch entry the squared distance
  matrix is D[i, j] = Σ_d (y[i, d] - x[j, d])², and the loss is

      ( Σ_b Σ_j √(ε + min_i D_b[i, j]) ) / 32768  +  ( Σ_b Σ_i √(ε + min_j D_b[i, j]) ) / 32768 .

  `chamferK` is this formula as it stands: the squared differences accumulated coordinate by coordinate from zero,
  the minimum taken BEFORE the square root. `chamferR` expands the square, D[i, j] = |y_i|² + |x_j|² - 2 y_i·x_j,
  clamps it at zero, and takes the square root of every entry BEFORE the minimum. They agree because
    * a ↦ √(ε + a) is monotone on the extended reals and fixes +∞, so it commutes with a minimum folded from +∞;
    * on FINITE coordinates the expanded square is the sum of squared differences (a ring identity in ℝ), which is
      nonnegative, so the clamp is the identity. (At an infinite coordinate the expansion is ∞ - ∞: finiteness is used.)
  The float words (0, +∞, ε, 2, 32768) stay bit patterns; only 0, 2, +∞ and "ε is a real" are ever evaluated.
-/
import Idealize.ShloMosaic.PureOps.Ideal
import Idealize.ShloMosaic.PureOps.Ideal.Laws

noncomputable section

namespace Cert.Chamfer

open Idealize.ShloMosaic

/-- A batch of point clouds: entry, point, coordinate. -/
abbrev Cloud := Fin 32 → Fin 1024 → Fin 3 → EReal

abbrev zeroW : EReal := Ideal.ofBits .f32 0x00000000#32
abbrev infW : EReal := Ideal.ofBits .f32 0x7F800000#32
abbrev epsW : EReal := Ideal.ofBits .f32 0x358637BD#32
abbrev twoW : EReal := Ideal.ofBits .f32 0x40000000#32
abbrev cntW : EReal := Ideal.ofBits .f32 0x47000000#32

theorem zeroW_eq : zeroW = 0 := Ideal.ofBits_zero_f32
theorem infW_eq : infW = ⊤ := by simp [Ideal.ofBits, Ideal.ieee]
theorem twoW_eq : twoW = ((2 : ℝ) : EReal) := by simp [Ideal.ofBits, Ideal.ieee, -EReal.coe_mul]; norm_num
/-- ε's pattern denotes a real number (which one never matters). -/
theorem epsW_real : ∃ e : ℝ, epsW = (e : EReal) := ⟨_, by simp [Ideal.ofBits, Ideal.ieee, -EReal.coe_mul]; rfl⟩

/-- The points of one cloud: point, coordinate. -/
abbrev Pts := Fin 1024 → Fin 3 → EReal

/-- D[i, j]: the squared differences, accumulated coordinate by coordinate from zero. -/
def sqDiff (x y : Pts) (i j : Fin 1024) : EReal :=
  ((zeroW + (y i 0 - x j 0) * (y i 0 - x j 0)) + (y i 1 - x j 1) * (y i 1 - x j 1))
    + (y i 2 - x j 2) * (y i 2 - x j 2)

/-- D[i, j] by the norms and the cross term, clamped at zero. -/
def sqNorm (x y : Pts) (i j : Fin 1024) : EReal :=
  max (((zeroW + ∑ d : Fin 3, y i d * y i d) + (zeroW + ∑ d : Fin 3, x j d * x j d))
    - twoW * ∑ d : Fin 3, y i d * x j d) zeroW

/-- a ↦ √(ε + a). -/
def rootEps (a : EReal) : EReal := Ideal.sqrt (epsW + a)

/-- Σ_j √(ε + min_i D[i, j]): every x point to its nearest y point. -/
def colSum (x y : Pts) : EReal := ∑ j : Fin 1024, rootEps (Finset.univ.fold min infW fun i : Fin 1024 => sqDiff x y i j)
/-- Σ_i √(ε + min_j D[i, j]): every y point to its nearest x point. -/
def rowSum (x y : Pts) : EReal := ∑ i : Fin 1024, rootEps (Finset.univ.fold min infW fun j : Fin 1024 => sqDiff x y i j)

/-- A 128-lane tile holding s1 in lane 0, s2 in lane 1 and zero elsewhere, as two selects on the lane number. -/
def laneVal (s1 s2 : EReal) (l : Fin 128) : EReal :=
  Scalar.select (IntOp.cmpi .eq (BitVec.ofNat 32 l.val) 0#32) s1
    (Scalar.select (IntOp.cmpi .eq (BitVec.ofNat 32 l.val) 1#32) s2 zeroW)

theorem laneVal_zero (s1 s2 : EReal) : laneVal s1 s2 0 = s1 := rfl
theorem laneVal_one (s1 s2 : EReal) : laneVal s1 s2 1 = s2 := rfl

/-- The tile one batch entry contributes, at lane l. -/
def tileAt (x y : Pts) (l : Fin 128) : EReal := laneVal (colSum x y) (rowSum x y) l

/-- The loss, minimum first. -/
def chamferK (X Y : Cloud) : EReal :=
  Ideal.div (zeroW + ∑ b : Fin 32, colSum (X b) (Y b)) cntW + Ideal.div (zeroW + ∑ b : Fin 32, rowSum (X b) (Y b)) cntW

/-- The loss, square root first, over the expanded and clamped square. -/
def chamferR (X Y : Cloud) : EReal :=
  Ideal.div (zeroW + ∑ b : Fin 32, ∑ j : Fin 1024, Finset.univ.fold min infW fun i : Fin 1024 => rootEps (sqNorm (X b) (Y b) i j)) cntW
    + Ideal.div (zeroW + ∑ b : Fin 32, ∑ i : Fin 1024, Finset.univ.fold min infW fun j : Fin 1024 => rootEps (sqNorm (X b) (Y b) i j)) cntW

/-! ## The square root is monotone -/

theorem sqrt_mono : Monotone Ideal.sqrt := by
  intro a b hab
  induction a using EReal.rec with
  | bot => exact bot_le
  | top => rw [top_le_iff.mp hab]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

theorem rootEps_mono : Monotone rootEps := fun _ _ h => sqrt_mono (add_le_add le_rfl h)

theorem rootEps_inf : rootEps infW = infW := by
  obtain ⟨e, he⟩ := epsW_real
  unfold rootEps
  rw [he, infW_eq, EReal.coe_add_top]
  rfl

/-- √(ε + ·) of a minimum folded from +∞ is the minimum of the √(ε + ·), folded from +∞. -/
theorem rootEps_fold {ι : Type} (s : Finset ι) (g : ι → EReal) :
    rootEps (s.fold min infW g) = s.fold min infW fun i => rootEps (g i) := by
  have h := Finset.fold_hom (op := (min : EReal → EReal → EReal)) (op' := min) (s := s) (b := infW) (f := g)
    (m := rootEps) (fun x y => rootEps_mono.map_min)
  rw [rootEps_inf] at h
  exact h.symm

/-! ## The expanded square on real coordinates -/

theorem sq_real (y0 y1 y2 x0 x1 x2 : ℝ) :
    max ((((0 : EReal) + ((y0 : EReal) * y0 + (y1 : EReal) * y1 + (y2 : EReal) * y2))
        + (0 + ((x0 : EReal) * x0 + (x1 : EReal) * x1 + (x2 : EReal) * x2)))
        - ((2 : ℝ) : EReal) * ((y0 : EReal) * x0 + (y1 : EReal) * x1 + (y2 : EReal) * x2)) 0
      = (((0 : EReal) + ((y0 : EReal) - x0) * ((y0 : EReal) - x0)) + ((y1 : EReal) - x1) * ((y1 : EReal) - x1))
        + ((y2 : EReal) - x2) * ((y2 : EReal) - x2) := by
  have key : y0 * y0 + y1 * y1 + y2 * y2 + (x0 * x0 + x1 * x1 + x2 * x2) - 2 * (y0 * x0 + y1 * x1 + y2 * x2)
      = (y0 - x0) * (y0 - x0) + (y1 - x1) * (y1 - x1) + (y2 - x2) * (y2 - x2) := by ring
  simp only [zero_add, ← EReal.coe_mul, ← EReal.coe_add, ← EReal.coe_sub]
  rw [key, max_eq_left]
  rw [← EReal.coe_zero, EReal.coe_le_coe_iff]
  nlinarith [mul_self_nonneg (y0 - x0), mul_self_nonneg (y1 - x1), mul_self_nonneg (y2 - x2)]

/-- On finite coordinates the expanded, clamped square is the sum of squared differences. -/
theorem sqNorm_eq_sqDiff (x y : Pts) (hx : ∀ n d, ∃ r : ℝ, x n d = r) (hy : ∀ n d, ∃ r : ℝ, y n d = r)
    (i j : Fin 1024) : sqNorm x y i j = sqDiff x y i j := by
  obtain ⟨y0, e0⟩ := hy i 0
  obtain ⟨y1, e1⟩ := hy i 1
  obtain ⟨y2, e2⟩ := hy i 2
  obtain ⟨x0, f0⟩ := hx j 0
  obtain ⟨x1, f1⟩ := hx j 1
  obtain ⟨x2, f2⟩ := hx j 2
  unfold sqNorm sqDiff
  simp only [Fin.sum_univ_three]
  rw [e0, e1, e2, f0, f1, f2, zeroW_eq, twoW_eq]
  exact sq_real y0 y1 y2 x0 x1 x2

/-- THE LAW: on finite clouds the two writings of the loss are one extended real. -/
theorem chamferR_eq_chamferK (X Y : Cloud) (hX : ∀ b n d, ∃ r : ℝ, X b n d = r) (hY : ∀ b n d, ∃ r : ℝ, Y b n d = r) :
    chamferR X Y = chamferK X Y := by
  unfold chamferR chamferK colSum rowSum
  simp only [fun b => sqNorm_eq_sqDiff (X b) (Y b) (hX b) (hY b), rootEps_fold]

end Cert.Chamfer

end
-- ==== Proof.KernelBody.lean ====
/-
  What the kernel's body writes, read at an index.

  One grid point sees one batch entry: a [1, 3, 1024] block of x laid coordinate-major and a [1, 1024, 3] block of y.
  The body builds D[i, j] = Σ_d (y[i, d] - x[d, j])² as a [1024, 1024] vector (a column of y broadcast along lanes
  minus a row of x broadcast along sublanes, squared, three times from zero), takes its minimum over each axis from
  +∞, adds ε, takes square roots, sums each of the two vectors to one number, and places the two numbers in lanes 0
  and 1 of a 128-lane tile. Here each of those steps is read at an index; the result is the tile of the column sum and
  the row sum of the block's points.
-/
import proofs.«417639_j51127290692351_3_alg».proof.Proof.Gen.KernelIdeal.Frame
import proofs.«417639_j51127290692351_3_alg».proof.Proof.ChamferSpec
import Idealize.ShloMosaic.Lib.Pipeline.Value
import Idealize.ShloMosaic.Lib.ValueIdx
import Idealize.ShloMosaic.Lib.ValueLayout
import Idealize.ShloMosaic.PureOps.Ideal.Laws

noncomputable section

namespace Cert.Chamfer.Body

open Idealize.ShloMosaic Idealize.ShloMosaic.ValueIdx Cert.KernelIdeal Cert.KernelIdeal.Gen Cert.Chamfer

/-! ## Layout steps at an index -/

/-- A [1, n, 1] column viewed [n, 1] and broadcast along lanes reads, at (i, j), the column at i. -/
theorem col_bcast (v : Vec Ideal S1x1024x1 .f32) (i j : Fin 1024) :
    broadcastTo S1024x1024 (shapeCast S1024x1 v Facts₀.shapeCasts_S1x1024x1_S1024x1) Facts₀.broadcasts_S1024x1_S1024x1024 (ix2 i j)
      = v (ix3 (0 : Fin 1) i (0 : Fin 1)) := by
  refine (broadcastTo_apply _ Facts₀.broadcasts_S1024x1_S1024x1024 (ix2 i j) (ix2 i (0 : Fin 1)) fun ax => ?_).trans ?_
  · match ax with
    | ⟨0, _⟩ => rfl
    | ⟨1, _⟩ => rfl
  · exact shapeCast_1ab_ab_apply v _ i (0 : Fin 1)

/-- A [1, 1, n] row viewed [1, n] and broadcast along sublanes reads, at (i, j), the row at j. -/
theorem row_bcast (v : Vec Ideal S1x1x1024 .f32) (i j : Fin 1024) :
    broadcastTo S1024x1024 (shapeCast S1x1024 v Facts₀.shapeCasts_S1x1x1024_S1x1024) Facts₀.broadcasts_S1x1024_S1024x1024 (ix2 i j)
      = v (ix3 (0 : Fin 1) (0 : Fin 1) j) :=
  (broadcastTo_1b_ab_apply _ Facts₀.broadcasts_S1x1024_S1024x1024 i j).trans (shapeCast_1ab_ab_apply v _ (0 : Fin 1) j)

/-- A vector of n viewed [n, 1]. -/
theorem cast_col (v : FVec Ideal S1024 .f32) (i : Fin 1024) (u : Fin 1) :
    shapeCast S1024x1 v Facts₀.shapeCasts_S1024_S1024x1 (ix2 i u) = v (ix1 i) :=
  shapeCast_apply v _ _ _ (by
    have hu : u.val = 0 := by omega
    rw [Shape.rowMajor_val_two, Shape.rowMajor_val_one]
    show i.val = i.val * 1 + u.val
    omega)

/-- A single number viewed [1, 1] and broadcast over a 128-lane row. -/
theorem one_bcast (v : FVec Ideal S1 .f32) (l : Fin 128) :
    broadcastTo S1x128 (shapeCast S1x1 (shapeCast S1x1 v Facts₀.shapeCasts_S1_S1x1) Facts₀.shapeCasts_S1x1_S1x1) Facts₀.broadcasts_S1x1_S1x128 (ix2 (0 : Fin 1) l)
      = v (ix1 (0 : Fin 1)) := by
  refine (broadcastTo_apply _ Facts₀.broadcasts_S1x1_S1x128 (ix2 (0 : Fin 1) l) (ix2 (0 : Fin 1) (0 : Fin 1)) fun ax => ?_).trans ?_
  · match ax with
    | ⟨0, _⟩ => rfl
    | ⟨1, _⟩ => rfl
  · rw [shapeCast_self]
    exact shapeCast_a_1a_apply v _ (0 : Fin 1) (0 : Fin 1)

/-- A vector square root at an index. -/
theorem vsqrt_apply {s : Shape} (v : FVec Ideal s .f32) (i : s.Idx) : sqrt v i = Ideal.sqrt (v i) := rfl

/-! ## The two minima as folds over a coordinate -/

/-- The minimum over the rows (axis 0) of an [n, n] vector, from +∞: at lane j the fold of min over i. -/
theorem min_rows (src : FVec Ideal S1024x1024 .f32) (j : Fin 1024) :
    multiReduction .minimumf [0] S1024 src 0x7F800000#32 Facts₀.reduces_S1024x1024_S1024 (.inl rfl) rfl (ix1 j)
      = Finset.univ.fold min infW fun i : Fin 1024 => src (ix2 i j) := by
  refine (multiReduction_minimumf_eq_fold src _ Facts₀.reduces_S1024x1024_S1024 _ _ (ix1 j)).trans ?_
  refine (Facts₀.reduces_S1024x1024_S1024.fold_filter_drop_single _ _ src (ix1 j)).trans ?_
  refine congrArg (Finset.fold _ _ · _) (funext fun i => congrArg src (funext fun a => Fin.ext ?_))
  match a with
  | ⟨0, _⟩ => rfl
  | ⟨1, _⟩ => rfl

/-- The minimum over the lanes (axis 1), from +∞: at row i the fold of min over j. -/
theorem min_lanes (src : FVec Ideal S1024x1024 .f32) (i : Fin 1024) :
    multiReduction .minimumf [1] S1024 src 0x7F800000#32 Facts₀.reduces_S1024x1024_S1024_2 (.inl rfl) rfl (ix1 i)
      = Finset.univ.fold min infW fun j : Fin 1024 => src (ix2 i j) := by
  refine (multiReduction_minimumf_eq_fold src _ Facts₀.reduces_S1024x1024_S1024_2 _ _ (ix1 i)).trans ?_
  refine (Facts₀.reduces_S1024x1024_S1024_2.fold_filter_drop_single _ _ src (ix1 i)).trans ?_
  refine congrArg (Finset.fold _ _ · _) (funext fun j => congrArg src (funext fun a => Fin.ext ?_))
  match a with
  | ⟨0, _⟩ => rfl
  | ⟨1, _⟩ => rfl

/-! ## The body's values -/

/-- The points a pair of blocks holds: x coordinate-major, y point-major. -/
abbrev xPts (x0 : Vec Ideal S1x3x1024 .f32) : Pts := fun j d => x0 (ix3 (0 : Fin 1) d j)
abbrev yPts (x1 : Vec Ideal S1x1024x3 .f32) : Pts := fun i d => x1 (ix3 (0 : Fin 1) i d)

/-- The squared-distance vector at (i, j), over the six loaded slices. -/
theorem sq_apply (v1 v10 v19 : Vec Ideal S1x1x1024 .f32) (v3 v12 v21 : Vec Ideal S1x1024x1 .f32) (i j : Fin 1024) :
    k0_pay2 (F := Ideal) v1 v3 v10 v12 v19 v21 (ix2 i j)
      = ((zeroW + (v3 (ix3 (0 : Fin 1) i (0 : Fin 1)) - v1 (ix3 (0 : Fin 1) (0 : Fin 1) j)) * (v3 (ix3 (0 : Fin 1) i (0 : Fin 1)) - v1 (ix3 (0 : Fin 1) (0 : Fin 1) j)))
          + (v12 (ix3 (0 : Fin 1) i (0 : Fin 1)) - v10 (ix3 (0 : Fin 1) (0 : Fin 1) j)) * (v12 (ix3 (0 : Fin 1) i (0 : Fin 1)) - v10 (ix3 (0 : Fin 1) (0 : Fin 1) j)))
          + (v21 (ix3 (0 : Fin 1) i (0 : Fin 1)) - v19 (ix3 (0 : Fin 1) (0 : Fin 1) j)) * (v21 (ix3 (0 : Fin 1) i (0 : Fin 1)) - v19 (ix3 (0 : Fin 1) (0 : Fin 1) j)) := by
  unfold k0_pay2
  simp only [addf_apply, mulf_apply, subf_apply, broadcast_apply]
  rw [col_bcast v3 i j, col_bcast v12 i j, col_bcast v21 i j, row_bcast v1 i j, row_bcast v10 i j, row_bcast v19 i j]
  rfl

/-- The row minimum, as the [n, 1] column the body keeps: at (i, 0) the fold of min over j of D[i, j]. -/
theorem rowmin_apply (v1 v10 v19 : Vec Ideal S1x1x1024 .f32) (v3 v12 v21 : Vec Ideal S1x1024x1 .f32) (i : Fin 1024) (u : Fin 1) :
    k0_pay3 (F := Ideal) v1 v3 v10 v12 v19 v21 (ix2 i u)
      = Finset.univ.fold min infW fun j : Fin 1024 => k0_pay2 (F := Ideal) v1 v3 v10 v12 v19 v21 (ix2 i j) := by
  unfold k0_pay3
  exact (cast_col _ i u).trans (min_lanes _ i)

/-- √(ε + column minimum), as the [1, n] row the body keeps: at (0, j), over the fold of min over i of D[i, j]. -/
theorem colroot_apply (v1 v10 v19 : Vec Ideal S1x1x1024 .f32) (v3 v12 v21 : Vec Ideal S1x1024x1 .f32) (u : Fin 1) (j : Fin 1024) :
    k0_pay4 (F := Ideal) v1 v3 v10 v12 v19 v21 (ix2 u j)
      = rootEps (Finset.univ.fold min infW fun i : Fin 1024 => k0_pay2 (F := Ideal) v1 v3 v10 v12 v19 v21 (ix2 i j)) := by
  unfold k0_pay4
  rw [vsqrt_apply, addf_apply, broadcast_apply, shapeCast_a_1a_apply _ Facts₀.shapeCasts_S1024_S1x1024 u j, min_rows _ j]
  rfl

/-- The sum along the lanes of a [1, n] row, and down the sublanes of an [n, 1] column. -/
theorem sum_lanes (v : FVec Ideal S1x1024 .f32) :
    multiReduction .add [1] S1 v 0x00000000#32 Facts₀.reduces_S1x1024_S1 (.inl rfl) rfl (ix1 (0 : Fin 1)) = ∑ j : Fin 1024, v (ix2 (0 : Fin 1) j) := by
  refine (Ideal.multiReduction_add_single v _ Facts₀.reduces_S1x1024_S1 _ _ (ix1 (0 : Fin 1))).trans ?_
  refine Finset.sum_congr rfl fun j _ => congrArg v (funext fun a => Fin.ext ?_)
  match a with
  | ⟨0, _⟩ => rfl
  | ⟨1, _⟩ => rfl
theorem sum_sublanes (v : FVec Ideal S1024x1 .f32) :
    multiReduction .add [0] S1 v 0x00000000#32 Facts₀.reduces_S1024x1_S1 (.inl rfl) rfl (ix1 (0 : Fin 1)) = ∑ i : Fin 1024, v (ix2 i (0 : Fin 1)) := by
  refine (Ideal.multiReduction_add_single v _ Facts₀.reduces_S1024x1_S1 _ _ (ix1 (0 : Fin 1))).trans ?_
  refine Finset.sum_congr rfl fun i _ => congrArg v (funext fun a => Fin.ext ?_)
  match a with
  | ⟨0, _⟩ => rfl
  | ⟨1, _⟩ => rfl

/-- The stored tile at lane l: the lane sum of the rooted column minima in lane 0, the sublane sum of the rooted
    (ε + row minima) in lane 1. -/
theorem tile_apply (v31 v35 : FVec Ideal S1024x1 .f32) (v34 : FVec Ideal S1x1024 .f32) (u w : Fin 1) (l : Fin 128) :
    k0_pay1 (F := Ideal) v31 v34 v35 (ix3 u w l)
      = laneVal (∑ j : Fin 1024, v34 (ix2 (0 : Fin 1) j)) (∑ i : Fin 1024, Ideal.sqrt (v35 (ix2 i (0 : Fin 1)) + v31 (ix2 i (0 : Fin 1)))) l := by
  have hw : w = (0 : Fin 1) := Subsingleton.elim _ _
  subst hw
  unfold k0_pay1
  refine (shapeCast_ab_1ab_apply _ Facts₀.shapeCasts_S1x128_S1x1x128 u (0 : Fin 1) l).trans ?_
  show Scalar.select (IntOp.cmpi .eq (iota .tc S1x128 32 [1] Facts₀.iota_S1x128_d1_w32 (ix2 (0 : Fin 1) l)) 0#32) _
      (Scalar.select (IntOp.cmpi .eq (iota .tc S1x128 32 [1] Facts₀.iota_S1x128_d1_w32 (ix2 (0 : Fin 1) l)) 1#32) _ _) = _
  rw [iota_single_apply, one_bcast _ l, one_bcast _ l, sum_lanes, sum_sublanes]
  rfl

/-- The six loads: slice d of the x block is coordinate d of the points, column d of the y block likewise. -/
theorem ldx0 (x0 : Vec Ideal S1x3x1024 .f32) (j : Fin 1024) : View.ld x0 r0_0 (ix3 (0 : Fin 1) (0 : Fin 1) j) = xPts x0 j 0 :=
  congrArg x0 (funext fun a => Fin.ext (by
    match a with
    | ⟨0, _⟩ => rfl
    | ⟨1, _⟩ => rfl
    | ⟨2, _⟩ => show 0 + 1 * j.val = j.val; omega))
theorem ldx1 (x0 : Vec Ideal S1x3x1024 .f32) (j : Fin 1024) : View.ld x0 r0_2 (ix3 (0 : Fin 1) (0 : Fin 1) j) = xPts x0 j 1 :=
  congrArg x0 (funext fun a => Fin.ext (by
    match a with
    | ⟨0, _⟩ => rfl
    | ⟨1, _⟩ => rfl
    | ⟨2, _⟩ => show 0 + 1 * j.val = j.val; omega))
theorem ldx2 (x0 : Vec Ideal S1x3x1024 .f32) (j : Fin 1024) : View.ld x0 r0_4 (ix3 (0 : Fin 1) (0 : Fin 1) j) = xPts x0 j 2 :=
  congrArg x0 (funext fun a => Fin.ext (by
    match a with
    | ⟨0, _⟩ => rfl
    | ⟨1, _⟩ => rfl
    | ⟨2, _⟩ => show 0 + 1 * j.val = j.val; omega))
theorem ldy0 (x1 : Vec Ideal S1x1024x3 .f32) (i : Fin 1024) : View.ld x1 r0_1 (ix3 (0 : Fin 1) i (0 : Fin 1)) = yPts x1 i 0 :=
  congrArg x1 (funext fun a => Fin.ext (by
    match a with
    | ⟨0, _⟩ => rfl
    | ⟨1, _⟩ => show 0 + 1 * i.val = i.val; omega
    | ⟨2, _⟩ => rfl))
theorem ldy1 (x1 : Vec Ideal S1x1024x3 .f32) (i : Fin 1024) : View.ld x1 r0_3 (ix3 (0 : Fin 1) i (0 : Fin 1)) = yPts x1 i 1 :=
  congrArg x1 (funext fun a => Fin.ext (by
    match a with
    | ⟨0, _⟩ => rfl
    | ⟨1, _⟩ => show 0 + 1 * i.val = i.val; omega
    | ⟨2, _⟩ => rfl))
theorem ldy2 (x1 : Vec Ideal S1x1024x3 .f32) (i : Fin 1024) : View.ld x1 r0_5 (ix3 (0 : Fin 1) i (0 : Fin 1)) = yPts x1 i 2 :=
  congrArg x1 (funext fun a => Fin.ext (by
    match a with
    | ⟨0, _⟩ => rfl
    | ⟨1, _⟩ => show 0 + 1 * i.val = i.val; omega
    | ⟨2, _⟩ => rfl))

/-- D[i, j] of the block's points. -/
theorem sq_blocks (x0 : Vec Ideal S1x3x1024 .f32) (x1 : Vec Ideal S1x1024x3 .f32) (i j : Fin 1024) :
    k0_pay2 (F := Ideal) (View.ld x0 r0_0) (View.ld x1 r0_1) (View.ld x0 r0_2) (View.ld x1 r0_3) (View.ld x0 r0_4) (View.ld x1 r0_5) (ix2 i j)
      = sqDiff (xPts x0) (yPts x1) i j := by
  rw [sq_apply, ldx0, ldx1, ldx2, ldy0, ldy1, ldy2]
  rfl

/-- THE BLOCK a point writes, at lane l: the tile of the column sum and the row sum of the block's points. -/
theorem out_apply (x0 : Vec Ideal S1x3x1024 .f32) (x1 : Vec Ideal S1x1024x3 .f32) (u w : Fin 1) (l : Fin 128) :
    out0_2 (F := Ideal) x0 x1 (ix3 u w l) = laneVal (colSum (xPts x0) (yPts x1)) (rowSum (xPts x0) (yPts x1)) l := by
  have hz : (![0, 0, 0] : Fin 3 → Nat) = fun _ => 0 := funext fun a => by fin_cases a <;> rfl
  unfold out0_2
  rw [View.canon_unit_zero hz, tile_apply]
  unfold colSum rowSum
  refine congrArg₂ (laneVal · · l) (Finset.sum_congr rfl fun j _ => ?_) (Finset.sum_congr rfl fun i _ => ?_)
  · rw [colroot_apply]
    refine congrArg rootEps (congrArg (Finset.fold _ _ · _) (funext fun i => ?_))
    exact sq_blocks x0 x1 i j
  · rw [rowmin_apply]
    show Ideal.sqrt (epsW + _) = _
    refine congrArg rootEps (congrArg (Finset.fold _ _ · _) (funext fun j => ?_))
    exact sq_blocks x0 x1 i j

end Cert.Chamfer.Body

end
-- ==== Proof.KernelArray.lean ====
/-
  The kernel's output array after the region.

  Grid point t (of 32) stages entry t of x (coordinate-major, [32, 3, 1024]) and of y ([32, 1024, 3]) and writes back
  row t of the [32, 1, 128] output: the tile of that entry's column sum and row sum. The 32 written blocks are the 32
  rows, so they cover the array, and after the region it is, at (b, 0, l), the tile of entry b at lane l.
-/
import proofs.«417639_j51127290692351_3_alg».proof.Proof.KernelBody

set_option maxRecDepth 16384

noncomputable section

namespace Cert.Chamfer.Arr

open Idealize.ShloMosaic Idealize.ShloMosaic.TcCoe Idealize.ShloMosaic.ValueIdx Idealize.SL.Sem
open Cert.KernelIdeal Cert.KernelIdeal.Gen Cert.Chamfer Cert.Chamfer.Body
open Idealize.ShloMosaic.Pipeline (Dat)

variable (m : (ℓ : Loc nD τ sig) → Buf (Elt Ideal) ℓ)

/-- The points of entry b in the two staged arrays. -/
abbrev xOf (XT : S32x3x1024.Idx → EReal) (b : Fin 32) : Pts := fun j d => XT (ix3 b d j)
abbrev yOf (Y3 : S32x1024x3.Idx → EReal) (b : Fin 32) : Pts := fun i d => Y3 (ix3 b i d)

/-- The output array as one function of the two staged arrays. -/
def tiles (XT : S32x3x1024.Idx → EReal) (Y3 : S32x1024x3.Idx → EReal) : S32x1x128.Idx → EReal :=
  fun i => tileAt (xOf XT (i 0)) (yOf Y3 (i 0)) (i 2)

theorem tiles_apply (XT : S32x3x1024.Idx → EReal) (Y3 : S32x1024x3.Idx → EReal) (b : Fin 32) (u : Fin 1) (l : Fin 128) :
    tiles XT Y3 (ix3 b u l) = tileAt (xOf XT b) (yOf Y3 b) l := rfl

/-- The three index maps send point t to block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Point t as an entry number. -/
abbrev entry (t : Fin cfg0.N) : Fin 32 := ⟨t.val, lt_of_lt_of_eq t.isLt N_0⟩

/-- The x block at point t holds entry t's points, -/
theorem xblock_eq (c : Dev nD) (t : Fin cfg0.N) : xPts (iblk m c 0 t) = xOf (V m c main_v2) (entry t) := by
  obtain ⟨a0, a1, a2, -⟩ := idx_facts t
  funext j d
  show V m c main_v2 (((cfg0.win 0).blk t).view.emb (ix3 (0 : Fin 1) d j)) = V m c main_v2 (ix3 (entry t) d j)
  refine congrArg _ (funext fun a => Fin.ext ?_)
  match a with
  | ⟨0, _⟩ => show win0_0.index t (0 : Fin 3) * 1 + 1 * 0 = t.val; omega
  | ⟨1, _⟩ => show win0_0.index t (1 : Fin 3) * 3 + 1 * d.val = d.val; omega
  | ⟨2, _⟩ => show win0_0.index t (2 : Fin 3) * 1024 + 1 * j.val = j.val; omega

/-- and so does the y block. -/
theorem yblock_eq (c : Dev nD) (t : Fin cfg0.N) : yPts (iblk m c 1 t) = yOf (V m c main_v1) (entry t) := by
  obtain ⟨-, -, -, a0, a1, a2, -⟩ := idx_facts t
  funext i d
  show V m c main_v1 (((cfg0.win 1).blk t).view.emb (ix3 (0 : Fin 1) i d)) = V m c main_v1 (ix3 (entry t) i d)
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 3 + 1 * d.val = d.val; omega

/-- WHAT POINT t WRITES BACK is block t of the tile array. -/
theorem flushed_eq (c : Dev nD) (t : Fin cfg0.N) :
    (dats m 0 c).flushed 2 t = ((cfg0.win 2).blk t).view.read (Elt Ideal) (tiles (V m c main_v2) (V m c main_v1)) := by
  show (cfg0.win 2).cut (grid0.coords t) ((dats m 0 c).after 2 t) = _
  rw [after0_2]
  have key : ∀ y : S1x1x128.Idx, out0_2 (F := Ideal) (iblk m c 0 t) (iblk m c 1 t) y
      = tiles (V m c main_v2) (V m c main_v1) (((cfg0.win 2).blk t).view.emb y) := by
    intro y
    obtain ⟨-, -, -, -, -, -, a0, a1, a2⟩ := idx_facts t
    obtain ⟨u, w, l, rfl⟩ : ∃ (u w : Fin 1) (l : Fin 128), y = ix3 u w l := ⟨y 0, y 1, y 2, eq_ix3 y⟩
    rw [out_apply, xblock_eq, yblock_eq]
    unfold tiles
    have e0 : ((cfg0.win 2).blk t).view.emb (ix3 u w l) 0 = entry t :=
      Fin.ext (by show win0_2.index t (0 : Fin 3) * 1 + 1 * u.val = t.val; omega)
    have e2 : ((cfg0.win 2).blk t).view.emb (ix3 u w l) 2 = l :=
      Fin.ext (by show win0_2.index t (2 : Fin 3) * 128 + 1 * l.val = l.val; omega)
    rw [e0, e2]
    rfl
  funext y
  exact key y

/-- An index is in point t's block iff each coordinate is in the block's range. -/
theorem mem_blk (t : Fin cfg0.N) (i : S32x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v3).slice (win0_2.rect t)).set ↔ _
  rw [View.set_slice_whole, Rect.mem_set_unit]
  exact Iff.rfl

/-- Row b of the output is point b's block. -/
theorem cover (i : S32x1x128.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 128 := (i 2).isLt
  refine ⟨⟨(i 0).val, lt_of_lt_of_eq h0 N_0.symm⟩, flush0_2 _, ?_⟩
  obtain ⟨-, -, -, -, -, -, a0', a1, a2⟩ := idx_facts ⟨(i 0).val, lt_of_lt_of_eq h0 N_0.symm⟩
  have a0 : win0_2.index ⟨(i 0).val, lt_of_lt_of_eq h0 N_0.symm⟩ (0 : Fin 3) = (i 0).val := a0'
  rw [mem_blk]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 128 ≤ (i 2).val ∧ (i 2).val < win0_2.index _ (2 : Fin 3) * 128 + 128; omega

/-- THE OUTPUT ARRAY after the region is the tile array of the two staged arrays. -/
theorem final (c : Dev nD) : (dats m 0 c).arrAt 2 cfg0.N = tiles (V m c main_v2) (V m c main_v1) :=
  (dats m 0 c).arrAt_eq_of_cover 2 _ (fun t _ => flushed_eq m c t) cover

end Cert.Chamfer.Arr

end
-- ==== Proof.Clouds.lean ====
/-
  The [2, 16, 1024, 3] argument arrays as batches of 32 clouds: the row-major reshape to [32, 1024, 3], read at
  (entry, point, coordinate). Both programs begin with this reshape of both arguments.
-/
import proofs.«417639_j51127290692351_3_alg».proof.Proof.ChamferSpec
import Idealize.ShloMosaic.Lib.ValueIdx

noncomputable section

namespace Cert.Chamfer

open Idealize.ShloMosaic Idealize.ShloMosaic.ValueIdx

/-- Entry b, point n, coordinate d of the argument array a. -/
def cloudOf (a : (⟨4, ![2, 16, 1024, 3]⟩ : Shape).Idx → EReal)
    (h : (⟨4, ![2, 16, 1024, 3]⟩ : Shape).ShapeCasts ⟨3, ![32, 1024, 3]⟩) : Cloud :=
  fun b n d => shapeCast ⟨3, ![32, 1024, 3]⟩ a h (ix3 b n d)

end Cert.Chamfer

end
-- ==== Proof.KernelTail.lean ====
/-
  The kernel program's result.

  Before the region the host reshapes both arguments to 32 clouds and transposes x to coordinate-major; after it the
  host views the [32, 1, 128] tile array as [32, 128], takes lane 0 and lane 1 of every row, sums each over the 32
  entries from zero, divides both totals by 32768 and adds them. Lane 0 of row b is entry b's column sum and lane 1 its
  row sum, so the result is the loss written minimum-first, of the arguments' clouds.
-/
import proofs.«417639_j51127290692351_3_alg».proof.Proof.KernelArray
import proofs.«417639_j51127290692351_3_alg».proof.Proof.Clouds
import Idealize.ShloMosaic.Lib.StableHlo.Run
import Idealize.ShloMosaic.Lib.ValueLayout

set_option maxRecDepth 16384

noncomputable section

namespace Cert.Chamfer.Tail

open Idealize.ShloMosaic Idealize.ShloMosaic.TcCoe Idealize.ShloMosaic.ValueIdx Idealize.SL.Sem Idealize.ShloMosaic.StableHlo
open Cert.KernelIdeal Cert.KernelIdeal.Gen Cert.Chamfer Cert.Chamfer.Body Cert.Chamfer.Arr

variable (m : (ℓ : Loc nD τ sig) → Buf (Elt Ideal) ℓ)

/-! ## The staged arrays are the arguments' clouds -/

/-- The y array the region stages: the reshape of the second argument. -/
theorem V_v1 (c : Dev nD) : (V m c main_v1 : S32x1024x3.Idx → EReal)
    = shapeCast S32x1024x3 (m ((c : Thread nD τ).loc main_arg1)) Facts₀.shapeCasts_S2x16x1024x3_S32x1024x3 := by
  show StableHlo.after hostOps0 (fun b => m (c, b)) (Proc.devRef .tc main_v1) = _
  after_results
  rfl

/-- The x array the region stages: the reshape of the first argument, its last two axes exchanged. -/
theorem V_v2 (c : Dev nD) : (V m c main_v2 : S32x3x1024.Idx → EReal)
    = transpose S32x3x1024 [0, 2, 1] (shapeCast S32x1024x3 (m ((c : Thread nD τ).loc main_arg0)) Facts₀.shapeCasts_S2x16x1024x3_S32x1024x3)
        Facts₀.transposes_S32x1024x3_S32x3x1024_0_2_1 := by
  show StableHlo.after hostOps0 (fun b => m (c, b)) (Proc.devRef .tc main_v2) = _
  after_results
  rfl

/-- The clouds of the two arguments. -/
abbrev XK (c : Dev nD) : Cloud := cloudOf (m ((c : Thread nD τ).loc main_arg0)) Facts₀.shapeCasts_S2x16x1024x3_S32x1024x3
abbrev YK (c : Dev nD) : Cloud := cloudOf (m ((c : Thread nD τ).loc main_arg1)) Facts₀.shapeCasts_S2x16x1024x3_S32x1024x3

theorem xOf_eq (c : Dev nD) (b : Fin 32) : xOf (V m c main_v2) b = XK m c b := by
  funext j d
  show V m c main_v2 (ix3 b d j) = _
  rw [V_v2]
  exact transpose_ix3_021_apply _ _ b d j

theorem yOf_eq (c : Dev nD) (b : Fin 32) : yOf (V m c main_v1) b = YK m c b := by
  funext i d
  show V m c main_v1 (ix3 b i d) = _
  rw [V_v1]
  rfl

/-! ## The host lines after the region, of any tile array -/

/-- The program's result as a function of the region's output array. -/
def tailOf (A : S32x1x128.Idx → EReal) : S_.Idx → EReal :=
  addf
    (Host.divf
      (Host.reduceAdd
        (shapeCast S32 (extractStridedSlice S32x1 ![0, 0] (shapeCast S32x128 A Facts₀.shapeCasts_S32x1x128_S32x128) Facts₀.slices_S32x128_S32x1_0_0)
          Facts₀.shapeCasts_S32x1_S32)
        (constant (F := Ideal) S_ .f32 0x00000000#32) Facts₀.reducesTo_S32_S_d0 Facts₀.h_S_)
      (constant (F := Ideal) S_ .f32 0x47000000#32))
    (Host.divf
      (Host.reduceAdd
        (shapeCast S32 (extractStridedSlice S32x1 ![0, 1] (shapeCast S32x128 A Facts₀.shapeCasts_S32x1x128_S32x128) Facts₀.slices_S32x128_S32x1_0_1)
          Facts₀.shapeCasts_S32x1_S32)
        (constant (F := Ideal) S_ .f32 0x00000000#32) Facts₀.reducesTo_S32_S_d0 Facts₀.h_S_)
      (constant (F := Ideal) S_ .f32 0x47000000#32))

/-- The tile array viewed [32, 128] at (b, l). -/
theorem rows_apply (A : S32x1x128.Idx → EReal) (b : Fin 32) (l : Fin 128) :
    shapeCast S32x128 A Facts₀.shapeCasts_S32x1x128_S32x128 (ix2 b l) = A (ix3 b (0 : Fin 1) l) :=
  shapeCast_apply A _ _ _ (by
    rw [Shape.rowMajor_val_three, Shape.rowMajor_val_two]
    show (b.val * 1 + 0) * 128 + l.val = b.val * 128 + l.val
    omega)

/-- A [32, 1] column viewed as 32 numbers. -/
theorem col_apply (v : S32x1.Idx → EReal) (b : Fin 32) :
    shapeCast S32 v Facts₀.shapeCasts_S32x1_S32 (ix1 b) = v (ix2 b (0 : Fin 1)) :=
  shapeCast_apply v _ _ _ (by
    rw [Shape.rowMajor_val_two, Shape.rowMajor_val_one]
    show b.val * 1 + 0 = b.val
    omega)

/-- Lane 0 and lane 1 of row b. -/
theorem lane0_apply (A : S32x1x128.Idx → EReal) (b : Fin 32) :
    shapeCast S32 (extractStridedSlice S32x1 ![0, 0] (shapeCast S32x128 A Facts₀.shapeCasts_S32x1x128_S32x128) Facts₀.slices_S32x128_S32x1_0_0)
      Facts₀.shapeCasts_S32x1_S32 (ix1 b) = A (ix3 b (0 : Fin 1) (0 : Fin 128)) := by
  rw [col_apply, slice2_axis1_apply 0 _ Facts₀.slices_S32x128_S32x1_0_0 b (0 : Fin 1) (0 : Fin 128) rfl, rows_apply]
theorem lane1_apply (A : S32x1x128.Idx → EReal) (b : Fin 32) :
    shapeCast S32 (extractStridedSlice S32x1 ![0, 1] (shapeCast S32x128 A Facts₀.shapeCasts_S32x1x128_S32x128) Facts₀.slices_S32x128_S32x1_0_1)
      Facts₀.shapeCasts_S32x1_S32 (ix1 b) = A (ix3 b (0 : Fin 1) (1 : Fin 128)) := by
  rw [col_apply, slice2_axis1_apply 1 _ Facts₀.slices_S32x128_S32x1_0_1 b (0 : Fin 1) (1 : Fin 128) rfl, rows_apply]

/-- A sum over a rank-1 index set is the sum over its coordinate. -/
theorem sum_idx1 {M : Type} [AddCommMonoid M] {n : Nat} (f : (⟨1, ![n]⟩ : Shape).Idx → M) : ∑ i, f i = ∑ a : Fin n, f (ix1 a) :=
  Fintype.sum_equiv (⟨fun i => i 0, fun a => ix1 a, fun i => (eq_ix1 i).symm, fun _ => rfl⟩ : (⟨1, ![n]⟩ : Shape).Idx ≃ Fin n)
    f (fun a => f (ix1 a)) (fun i => congrArg f (eq_ix1 i))

/-- The host's sum of 32 numbers from zero. -/
theorem total_apply (v : FVec Ideal S32 .f32) (i : S_.Idx) :
    Host.reduceAdd v (constant (F := Ideal) S_ .f32 0x00000000#32) Facts₀.reducesTo_S32_S_d0 Facts₀.h_S_ i = zeroW + ∑ b : Fin 32, v (ix1 b) := by
  simp only [Host.reduceAdd, Ideal.hostReduceAdd_def]
  rw [Ideal.hostReduceAdd_total Facts₀.reducesTo_S32_S_d0 (fun b => b.elim0) v _ i, sum_idx1]
  rfl

/-- The host's quotient at an index. -/
theorem hdiv_apply {s : Shape} (a b : FVec Ideal s .f32) (i : s.Idx) : Host.divf a b i = Ideal.div (a i) (b i) := rfl

/-- The result at its one index: the lane-0 total over 32768 plus the lane-1 total over 32768. -/
theorem tailOf_apply (A : S32x1x128.Idx → EReal) (i : S_.Idx) :
    tailOf A i = Ideal.div (zeroW + ∑ b : Fin 32, A (ix3 b (0 : Fin 1) (0 : Fin 128))) cntW
      + Ideal.div (zeroW + ∑ b : Fin 32, A (ix3 b (0 : Fin 1) (1 : Fin 128))) cntW := by
  unfold tailOf
  rw [addf_apply, hdiv_apply, hdiv_apply, total_apply, total_apply]
  simp only [lane0_apply, lane1_apply]
  rfl

/-! ## The result -/

/-- THE KERNEL PROGRAM'S RESULT is the loss, minimum first, of the arguments' clouds. -/
theorem result_eq (c : Dev nD) :
    Pipeline.afterTail₀ cfgs (dats m) 0 (V0 m) [hostOps1] c main_v13 = fun _ => chamferK (XK m c) (YK m c) := by
  unfold Pipeline.afterTail₀
  show StableHlo.after hostOps1 _ (Proc.devRef .tc main_v13) = _
  after_results
  refine Eq.trans (b := tailOf (tiles (V m c main_v2) (V m c main_v1))) ?_ ?_
  · exact congrArg tailOf ((Pipeline.withArrays_arr spec0 launch0.win.arr_inj c _ _ 2).trans (final m c))
  · funext i
    rw [tailOf_apply]
    simp only [tiles_apply]
    unfold chamferK tileAt
    simp only [laneVal_zero, laneVal_one]
    exact congrArg₂ (fun s1 s2 : EReal => Ideal.div (zeroW + s1) cntW + Ideal.div (zeroW + s2) cntW)
      (Finset.sum_congr rfl fun b _ => congrArg₂ colSum (xOf_eq m c b) (yOf_eq m c b))
      (Finset.sum_congr rfl fun b _ => congrArg₂ rowSum (xOf_eq m c b) (yOf_eq m c b))

end Cert.Chamfer.Tail

end
-- ==== Proof.RefValue.lean ====
/-
  The reference's result is the loss written square-root-first over the expanded square.

  The reference reshapes both arguments to 32 clouds, forms |x_j|², |y_i|² (sums over the three coordinates from
  zero) and the cross term y_i·x_j (a batched product contracting the coordinate), D = max(|y_i|² + |x_j|² - 2 y_i·x_j, 0),
  takes √(ε + D) of every entry, the minimum over i and over j from +∞, and divides the two totals by 32768.
  Each stage is read at an index; the two minima are folds over one coordinate; the two totals are double sums.
-/
import proofs.«417639_j51127290692351_3_alg».proof.Proof.Gen.ReferenceIdeal.Read
import proofs.«417639_j51127290692351_3_alg».proof.Proof.Clouds
import Idealize.ShloMosaic.Lib.ValueIdx
import Idealize.ShloMosaic.PureOps.Ideal.Laws
import Idealize.ShloMosaic.PureOps.Reduce

set_option maxRecDepth 16384

noncomputable section

namespace Cert.Chamfer.Ref

open Idealize.ShloMosaic Idealize.ShloMosaic.ValueIdx Cert.ReferenceIdeal Cert.ReferenceIdeal.Read Cert.Chamfer

abbrev Arg := (⟨S2x16x1024x3, .f32⟩ : BufTy).Contents (Elt Ideal)

/-- The clouds of the two arguments. -/
abbrev XC (x0 : Arg) : Cloud := cloudOf x0 Facts₀.shapeCasts_S2x16x1024x3_S32x1024x3
abbrev YC (x1 : Arg) : Cloud := cloudOf x1 Facts₀.shapeCasts_S2x16x1024x3_S32x1024x3

theorem v0_apply (x0 : Arg) (b : Fin 32) (n : Fin 1024) (d : Fin 3) : val_main_v0 (F := Ideal) x0 (ix3 b n d) = XC x0 b n d := rfl
theorem v1_apply (x1 : Arg) (b : Fin 32) (n : Fin 1024) (d : Fin 3) : val_main_v1 (F := Ideal) x1 (ix3 b n d) = YC x1 b n d := rfl

/-! ## The index maps of the broadcasts, the sums and the product, at (b, i, j) -/

theorem e_y2 (b : Fin 32) (i j : Fin 1024) (k : Fin 3) :
    idx_main_v5 (idx_main_v7 (idx_main_v9 (ix3 b i j))) k = ix3 b i k :=
  funext fun a => Fin.ext (by match a with | ⟨0, _⟩ => rfl | ⟨1, _⟩ => rfl | ⟨2, _⟩ => rfl)
theorem e_x2 (b : Fin 32) (i j : Fin 1024) (k : Fin 3) :
    idx_main_v3 (idx_main_v8 (idx_main_v10 (ix3 b i j))) k = ix3 b j k :=
  funext fun a => Fin.ext (by match a with | ⟨0, _⟩ => rfl | ⟨1, _⟩ => rfl | ⟨2, _⟩ => rfl)
theorem e_l (b : Fin 32) (i j : Fin 1024) (k : Fin 3) : lidx_main_v6 (ix3 b i j) k = ix3 b i k :=
  funext fun a => Fin.ext (by match a with | ⟨0, _⟩ => rfl | ⟨1, _⟩ => rfl | ⟨2, _⟩ => rfl)
theorem e_r (b : Fin 32) (i j : Fin 1024) (k : Fin 3) : ridx_main_v6 (ix3 b i j) k = ix3 b j k :=
  funext fun a => Fin.ext (by match a with | ⟨0, _⟩ => rfl | ⟨1, _⟩ => rfl | ⟨2, _⟩ => rfl)

/-- √(ε + clamped expanded square) at (b, i, j). -/
theorem dist_apply (x0 x1 : Arg) (b : Fin 32) (i j : Fin 1024) :
    val_main_v19 (F := Ideal) x0 x1 (ix3 b i j) = rootEps (sqNorm (XC x0 b) (YC x1 b) i j) := by
  rw [val_main_v19_apply, val_main_v18_apply, val_main_v17_apply, val_main_cst_3_apply, val_main_v16_apply, val_main_v15_apply,
    val_main_cst_2_apply, val_main_v14_apply, val_main_v11_apply, val_main_v9_apply, val_main_v7_apply, val_main_v5_apply,
    val_main_v10_apply, val_main_v8_apply, val_main_v3_apply, val_main_v13_apply, val_main_v12_apply, val_main_cst_1_apply,
    val_main_v6_apply]
  simp only [val_main_v4_apply, val_main_v2_apply, val_main_cst_apply, val_main_cst_0_apply, e_y2, e_x2, e_l, e_r,
    v0_apply, v1_apply]
  rfl

/-- The minimum over i (axis 1) at (b, j): the fold of min from +∞ over i. -/
theorem min_i_apply (x0 x1 : Arg) (b : Fin 32) (j : Fin 1024) :
    val_main_v20 (F := Ideal) x0 x1 (ix2 b j)
      = Finset.univ.fold min infW fun i : Fin 1024 => rootEps (sqNorm (XC x0 b) (YC x1 b) i j) := by
  have h : S32x1024x1024.Reduces [1] S32x1024 := by decide
  unfold val_main_v20
  refine (Host.reduce_eq_fold_single FloatOps.minimumf _ _ Facts₀.reducesTo_S32x1024x1024_S32x1024_d1 h Facts₀.h_S_ (ix2 b j)).trans ?_
  refine congrArg (Finset.fold _ _ · _) (funext fun i => ?_)
  refine Eq.trans (congrArg (val_main_v19 (F := Ideal) x0 x1) (funext fun a => Fin.ext ?_)) (dist_apply x0 x1 b i j)
  match a with
  | ⟨0, _⟩ => rfl
  | ⟨1, _⟩ => rfl
  | ⟨2, _⟩ => rfl

/-- The minimum over j (axis 2) at (b, i): the fold of min from +∞ over j. -/
theorem min_j_apply (x0 x1 : Arg) (b : Fin 32) (i : Fin 1024) :
    val_main_v21 (F := Ideal) x0 x1 (ix2 b i)
      = Finset.univ.fold min infW fun j : Fin 1024 => rootEps (sqNorm (XC x0 b) (YC x1 b) i j) := by
  have h : S32x1024x1024.Reduces [2] S32x1024 := by decide
  unfold val_main_v21
  refine (Host.reduce_eq_fold_single FloatOps.minimumf _ _ Facts₀.reducesTo_S32x1024x1024_S32x1024_d2 h Facts₀.h_S_ (ix2 b i)).trans ?_
  refine congrArg (Finset.fold _ _ · _) (funext fun j => ?_)
  refine Eq.trans (congrArg (val_main_v19 (F := Ideal) x0 x1) (funext fun a => Fin.ext ?_)) (dist_apply x0 x1 b i j)
  match a with
  | ⟨0, _⟩ => rfl
  | ⟨1, _⟩ => rfl
  | ⟨2, _⟩ => rfl

/-- THE REFERENCE'S RESULT is the loss, square root first, of the arguments' clouds. -/
theorem result_eq (x0 x1 : Arg) : val_main_v26 (F := Ideal) x0 x1 = fun _ => chamferR (XC x0) (YC x1) := by
  funext i
  rw [val_main_v26_apply, val_main_v23_apply, val_main_v25_apply, val_main_v22_apply, val_main_v24_apply, sum_idx2, sum_idx2]
  simp only [min_i_apply, min_j_apply]
  rfl

end Cert.Chamfer.Ref

end
-- ==== Proof.Finite.lean ====
/-
  Finite inputs are real numbers.

  The precondition is printed as one predicate on the two argument arrays: the conjunction of two "every |a| < +∞"
  reductions. Where it is all ones, each conjunct is one; a reduction by "and" from one that ends at one met a one at
  every index; and |a| < +∞ on the extended reals excludes exactly a = ±∞. So every coordinate of both clouds is a real.
-/
import proofs.«417639_j51127290692351_3_alg».proof.Pre_finite_inputs
import proofs.«417639_j51127290692351_3_alg».proof.Proof.Gen.Pre_finite_inputs
import proofs.«417639_j51127290692351_3_alg».proof.Proof.Clouds
import Idealize.ShloMosaic.Lib.ReduceAll
import Idealize.ShloMosaic.Lib.ValueIdx
import Idealize.ShloMosaic.PureOps.Ideal.Laws

noncomputable section

namespace Cert.Chamfer.Finite

open Idealize.ShloMosaic Idealize.ShloMosaic.ValueIdx Cert.Pre_finite_inputs Cert.Chamfer

instance : Subsingleton S_.Idx := ⟨fun a b => funext fun d => d.elim0⟩

/-- An extended real whose absolute value is below +∞ is a real. -/
theorem real_of_abs_lt_inf (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Where the precondition holds, every element of both arguments is a real. -/
theorem of_pre (a0 a1 : FVec Ideal S2x16x1024x3 .f32) (h : fn (F := Ideal) a0 a1 = fun _ => 1#1) :
    (∀ i, ∃ r : ℝ, a0 i = r) ∧ (∀ i, ∃ r : ℝ, a1 i = r) := by
  have h0 := congrFun h ix0
  dsimp only [fn] at h0
  obtain ⟨h1, h2⟩ := IntOp.andi_eq_one.1 h0
  exact ⟨fun i => real_of_abs_lt_inf (a0 i) (Host.reduce_andi_all _ _ _ _ _ h1 i),
    fun i => real_of_abs_lt_inf (a1 i) (Host.reduce_andi_all _ _ _ _ _ h2 i)⟩

/-- So every coordinate of the argument's clouds is a real. -/
theorem cloud_real (a : FVec Ideal S2x16x1024x3 .f32) (ha : ∀ i, ∃ r : ℝ, a i = r)
    (hc : (⟨4, ![2, 16, 1024, 3]⟩ : Shape).ShapeCasts ⟨3, ![32, 1024, 3]⟩) (b : Fin 32) (n : Fin 1024) (d : Fin 3) :
    ∃ r : ℝ, cloudOf a hc b n d = r := by
  unfold cloudOf shapeCast
  exact ha _

end Cert.Chamfer.Finite

end
-- ==== Proof.lean ====
/-
  The Chamfer loss kernel against its jnp reference, over the extended reals.

  Both programs take two [2, 16, 1024, 3] arrays x, y: 32 pairs of clouds of 1024 points in 3 coordinates. With
  D_b[i, j] = |y_b[i] - x_b[j]|² both return

      ( Σ_b Σ_j √(ε + min_i D_b[i, j]) ) / 32768  +  ( Σ_b Σ_i √(ε + min_j D_b[i, j]) ) / 32768 .

  The kernel (one grid point per pair) accumulates the squared differences coordinate by coordinate, takes the two
  minima of the squared distances, then the square roots, then the two sums, and leaves them in two lanes of a tile;
  the host sums the tiles' lanes over the pairs and divides. The reference expands the square through the norms and a
  batched product, clamps it at zero, takes the square root of every entry and then the minima and the means.

  At the ideal instance the two are one extended real when the inputs are finite: on real coordinates the expanded
  square IS the sum of squared differences (a ring identity; at an infinite coordinate it would be ∞ - ∞, so finiteness
  is used) and is nonnegative, so the clamp is the identity; and a ↦ √(ε + a) is monotone and fixes +∞, so it commutes
  with a minimum folded from +∞ (no finiteness needed there). Sums, quotients and the literal words are the same on
  both sides and are never evaluated.

  Modules: ChamferSpec (the two writings of the loss and the law between them), Clouds (an argument as 32 clouds),
  KernelBody (the body's stores at an index), KernelArray (the output array after the region), KernelTail (the host
  lines around the region: the kernel program's result), RefValue (the reference's result), Finite (finite inputs are
  reals). The frames and the runs of both programs are the generated ones.
-/
import proofs.«417639_j51127290692351_3_alg».proof.Defs
import proofs.«417639_j51127290692351_3_alg».proof.Proof.Gen.Kernel
import proofs.«417639_j51127290692351_3_alg».proof.Proof.Gen.Kernel.Frame
import proofs.«417639_j51127290692351_3_alg».proof.Proof.Gen.KernelIdeal
import proofs.«417639_j51127290692351_3_alg».proof.Proof.Gen.KernelIdeal.Frame
import proofs.«417639_j51127290692351_3_alg».proof.Proof.Gen.ReferenceIdeal
import proofs.«417639_j51127290692351_3_alg».proof.Proof.Gen.ReferenceIdeal.Run
import proofs.«417639_j51127290692351_3_alg».proof.Proof.Gen.ReferenceIdeal.Read
import proofs.«417639_j51127290692351_3_alg».proof.Proof.Gen.Pre_finite_inputs
import proofs.«417639_j51127290692351_3_alg».proof.Proof.KernelTail
import proofs.«417639_j51127290692351_3_alg».proof.Proof.RefValue
import proofs.«417639_j51127290692351_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.Chamfer

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the loss of the arguments' clouds: the kernel program at the minimum-first
    writing (its frame run, read at the result through the host lines after the region), the reference at the
    square-root-first writing (its generated run), and on finite clouds the two writings are one extended real. -/
theorem algebraic : Cert.algebraic_KernelIdeal_ReferenceIdeal := by
  intro m ρ m' ρ' hpre hagree
  refine ⟨fun c => fun _ => chamferK (Tail.XK m c) (Tail.YK m c), ?_, ?_⟩
  · refine (θ_run Cert.KernelIdeal.defs _ _).mono (fun r h c => ⟨?_, ?_, ?_⟩) (Cert.KernelIdeal.Gen.run_main m ρ)
    · exact ((h c).2 Cert.KernelIdeal.main_v13 (Pipeline.mem_restRefs_of Cert.KernelIdeal.main_v13 (by decide) (by decide))).trans
        (Tail.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨?_, (h c).2⟩)
      (Cert.ReferenceIdeal.Value.run (F := Ideal) m' ρ')
    have hfin := Finite.of_pre _ _ (hpre c)
    rw [(h c).1, Cert.ReferenceIdeal.Read.val_main_v26_eq, Ref.result_eq, (hagree c).1, (hagree c).2]
    exact funext fun _ => chamferR_eq_chamferK _ _ (Finite.cloud_real _ hfin.1 _) (Finite.cloud_real _ hfin.2 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
